-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S128x64 .f32) (main_arg9 : FVec F S64 .f32) (main_arg10 : FVec F S128x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_v48 main_v49 main_v50

def fn_part1 {F : FTy → Type} [FloatOps F] (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_v13 : IVec S_ 1) (main_v16 : IVec S262144x1 1) : IVec S_ 1 :=
  let main_c_5 : IVec S_ 1 := constantI S_ 1 1#1
  let main_v17 : IVec S_ 1 := (fun x v => Host.reduce IntOp.andi x v reducesTo_S262144x1_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S262144x64 .f32) (main_arg1 : FVec F S262144x64 .f32) (main_arg2 : FVec F S262144x64 .f32) (main_arg3 : FVec F S262144x1 .f32) (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x1 .f32 := Host.absf main_arg3
  let main_cst_4 : FVec F S_ .f32 := constant S_ .f32 0x7F800000#32
  let main_v15 : FVec F S262144x1 .f32 := broadcastInDim S262144x1 ![] bcast_S_S262144x1 main_cst_4
  let main_v16 : IVec S262144x1 1 := cmpf .olt main_v14 main_v15
  fn_part1 (F := F) main_arg4 main_arg5 main_arg6 main_arg7 main_arg8 main_arg9 main_arg10 main_arg11 main_v13 main_v16
-- ==== Kernel.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S8192x64 : Shape := ⟨2, ![8192, 64]⟩
abbrev S8192x1 : Shape := ⟨2, ![8192, 1]⟩

abbrev nBuf : Space → Nat
  | .hbm => 26
  | .vmem => 24
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x1, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S262144x64, .f32⟩
  | .hbm, ⟨25, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x1, .f32⟩
  | .local _ .vmem, ⟨7, _⟩ => ⟨S8192x1, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8192x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8192x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S8192x1_S8192x1_0_0 : ∀ a, (![0, 0] : Fin 2 → Nat) a + S8192x1.size a ≤ S8192x1.size a
  h_S8192x1 : 0 < S8192x1.numel
  inb_S8192x64_S8192x64_0_0 : ∀ a, (![0, 0] : Fin 2 → Nat) a + S8192x64.size a ≤ S8192x64.size a
  h_S8192x64 : 0 < S8192x64.numel
  broadcasts_S8192x1_S8192x64 : S8192x1.Broadcasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S262144x64.size a
  hwx0_2 : ∀ i : grid0.Coords, EltTy.bits .f32 = 32 ∨ (Rect.block (s := S262144x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S262144x1.size a
  hwx0_3 : ∀ i : grid0.Coords, EltTy.bits .f32 = 32 ∨ (Rect.block (s := S262144x1) S8192x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8192x64.size a ≤ S262144x64.size a
  hwx0_16 : ∀ i : grid0.Coords, EltTy.bits .f32 = 32 ∨ (Rect.block (s := S262144x64) S8192x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8192x64.size a ≤ S262144x64.size a
  hwx0_17 : ∀ i : grid0.Coords, EltTy.bits .f32 = 32 ∨ (Rect.block (s := S262144x64) S8192x64.size (cc0_transform_17 i) (hinb0_17 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12_0) S8192x64.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12_1) S8192x64.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x1 : Shape := ⟨2, ![262144, 1]⟩
abbrev S128x64 : Shape := ⟨2, ![128, 64]⟩
abbrev S64 : Shape := ⟨1, ![64]⟩
abbrev S262144x128 : Shape := ⟨2, ![262144, 128]⟩
abbrev S128x256 : Shape := ⟨2, ![128, 256]⟩
abbrev S256 : Shape := ⟨1, ![256]⟩
abbrev S262144x256 : Shape := ⟨2, ![262144, 256]⟩
abbrev S1x256 : Shape := ⟨2, ![1, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x1, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S128x256, .f32⟩
  | .hbm, ⟨16, _⟩ => ⟨S256, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S262144x64, .f32⟩
  | .hbm, ⟨22, _⟩ => ⟨S262144x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S_, .f32⟩
  | .hbm, ⟨28, _⟩ => ⟨S262144x64, .f32⟩
  | .hbm, ⟨29, _⟩ => ⟨S262144x64, .f32⟩
  | .hbm, ⟨30, _⟩ => ⟨S_, .f32⟩
  | .hbm, ⟨31, _⟩ => ⟨S262144x64, .f32⟩
  | .hbm, ⟨32, _⟩ => ⟨S262144x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S262144x64, .f32⟩
  | .hbm, ⟨43, _⟩ => ⟨S_, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S262144x64, .f32⟩
  | .hbm, ⟨51, _⟩ => ⟨S262144x64, .f32⟩
  | .hbm, ⟨52, _⟩ => ⟨S262144x64, .f32⟩
  | .hbm, ⟨53, _⟩ => ⟨S262144x64, .f32⟩
  | .hbm, ⟨54, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  concatenates_S262144x64_S262144x64_S262144x128_d1 : Shape.Concatenates [S262144x64, S262144x64] S262144x128 1
  bcast_S262144x1_S262144x128_0_1 : S262144x1.BroadcastsInDim S262144x128 (![0, 1] : Fin 2 → Fin S262144x128.rank)
  concatenates_S128x64_S128x64_S128x64_S128x64_S128x256_d1 : Shape.Concatenates [S128x64, S128x64, S128x64, S128x64] S128x256 1
  concatenates_S64_S64_S64_S64_S256_d0 : Shape.Concatenates [S64, S64, S64, S64] S256 0
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S262144x256_S262144x64_0_0 : S262144x256.Slices ![0, 0] S262144x64
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S_S262144x64 : S_.BroadcastsInDim S262144x64 (![] : Fin 0 → Fin S262144x64.rank)
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.Spec.lean ====
/-
  One step of an LSTM cell with a per-row dropout scale, as functions on the extended reals.

  Row `p` of the batch has an input vector `x p` and a previous hidden vector `h p` (64 entries each), a previous
  cell vector `c p`, and ONE scale `mk p` that multiplies every entry of both `x p` and `h p`. Each of the four gates
  has a weight matrix with 128 rows — rows 0..63 act on the scaled input, rows 64..127 on the scaled hidden
  vector — and a bias of 64 entries. A gate's pre-activation at column `j` is

      (sum over a of (x p a * mk p) * W a j  +  sum over a of (h p a * mk p) * W (64 + a) j)  +  b j,

  the new cell entry is  sigmoid(forget) * c + sigmoid(input) * tanh(candidate),  and the new hidden entry is
  sigmoid(output) * tanh(new cell).  Nothing here needs the entries to be finite: the only law used about sums is
  that a sum over 128 indices is the sum over its first 64 plus the sum over its last 64.
-/
import Idealize.ShloMosaic.Lib.ValueIdx
import Idealize.ShloMosaic.Lib.IdealHost
import Idealize.ShloMosaic.PureOps.Ideal.Laws

noncomputable section

namespace Cert.LstmCell

open Idealize.ShloMosaic Idealize.ShloMosaic.ValueIdx

/-- A batch of 64-entry rows. -/
abbrev Rows : Type := (⟨2, ![262144, 64]⟩ : Shape).Idx → EReal
/-- One number per row of the batch. -/
abbrev Col : Type := (⟨2, ![262144, 1]⟩ : Shape).Idx → EReal
/-- A gate's weights: 128 rows (input half, then hidden half), 64 columns. -/
abbrev Wt : Type := (⟨2, ![128, 64]⟩ : Shape).Idx → EReal
/-- A gate's bias. -/
abbrev Bias : Type := (⟨1, ![64]⟩ : Shape).Idx → EReal

/-- Row `a` of the input half of a weight matrix. -/
def lo (a : Fin 64) : Fin 128 := ⟨a.val, by omega⟩
/-- Row `a` of the hidden half of a weight matrix. -/
def hi (a : Fin 64) : Fin 128 := ⟨64 + a.val, by omega⟩

@[simp] theorem lo_val (a : Fin 64) : (lo a).val = a.val := rfl
@[simp] theorem hi_val (a : Fin 64) : (hi a).val = 64 + a.val := rfl

/-- A sum over 128 indices is the sum over the first 64 plus the sum over the last 64. -/
theorem sum_halves (f : Fin 128 → EReal) : ∑ k : Fin 128, f k = ∑ a : Fin 64, f (lo a) + ∑ a : Fin 64, f (hi a) :=
  Fin.sum_univ_add (a := 64) (b := 64) f

/-- A gate's pre-activation at row `p`, column `j`. -/
def gate (x h : Rows) (mk : Col) (W : Wt) (b : Bias) (p : Fin 262144) (j : Fin 64) : EReal :=
  (∑ a : Fin 64, (x (ix2 p a) * mk (ix2 p 0)) * W (ix2 (lo a) j)
    + ∑ a : Fin 64, (h (ix2 p a) * mk (ix2 p 0)) * W (ix2 (hi a) j)) + b (ix1 j)

/-- The new cell state. -/
def cell (x h c : Rows) (mk : Col) (Wi Wf Wg : Wt) (bi bf bg : Bias) : Rows := fun i =>
  Ideal.logistic (gate x h mk Wf bf (i 0) (i 1)) * c i
    + Ideal.logistic (gate x h mk Wi bi (i 0) (i 1)) * Ideal.tanh (gate x h mk Wg bg (i 0) (i 1))

/-- The new hidden state. -/
def hidden (x h c : Rows) (mk : Col) (Wi Wf Wo Wg : Wt) (bi bf bo bg : Bias) : Rows := fun i =>
  Ideal.logistic (gate x h mk Wo bo (i 0) (i 1)) * Ideal.tanh (cell x h c mk Wi Wf Wg bi bf bg i)

/-- The sigmoid spelled as `1 / (1 + e^(-y))` with the literal one is the sigmoid. -/
theorem logistic_spelled (y : EReal) :
    Ideal.div (Ideal.ofBits .f32 0x3F800000#32) (Ideal.ofBits .f32 0x3F800000#32 + Ideal.exp (-y)) = Ideal.logistic y := by
  rw [Ideal.ofBits_one_f32]
  rfl

end Cert.LstmCell

end
-- ==== Proof.CellRef.lean ====
/-
  The reference program, one stage at a time, is the LSTM cell step of the specification.

  The reference lays the input row and the hidden row side by side (a 128-entry row), scales every entry by the
  row's scale, lays the four gates' weight matrices side by side (256 columns) and the four biases end to end,
  takes ONE matrix product over the 128 entries, adds the bias, and cuts the result into the four gates' 64
  columns. Read at an entry: column `64 g + j` of the joined weights is column `j` of gate `g`'s weights, entry
  `64 g + j` of the joined bias is entry `j` of gate `g`'s bias, the joined row is the input row on its first 64
  entries and the hidden row on its last 64, and the sum over 128 entries splits into the two sums over 64.
  The sigmoid is spelled `1 / (1 + e^(-y))` with the literal one.
-/
import proofs.«127983_j19456201851160_1_alg».proof.Proof.Gen.ReferenceIdeal.Read
import proofs.«127983_j19456201851160_1_alg».proof.Proof.Spec
import Idealize.ShloMosaic.Lib.Pipeline.Value
import Idealize.ShloMosaic.Lib.ValueIdx
import Idealize.ShloMosaic.PureOps.Ideal.Laws

noncomputable section

namespace Cert.ReferenceIdeal.CellRef

open Cert.ReferenceIdeal Cert.ReferenceIdeal.Gen Cert.ReferenceIdeal.Read Idealize.ShloMosaic Idealize.ShloMosaic.ValueIdx
open Cert.LstmCell

variable (x0 x1 x2 : Rows) (x3 : Col) (x4 x6 x8 x10 : Wt) (x5 x7 x9 x11 : Bias)

/-- Column `j` of gate 0, 1, 2, 3 among the 256 joined columns. -/
def c0 (j : Fin 64) : Fin 256 := ⟨j.val, by omega⟩
def c1 (j : Fin 64) : Fin 256 := ⟨64 + j.val, by omega⟩
def c2 (j : Fin 64) : Fin 256 := ⟨128 + j.val, by omega⟩
def c3 (j : Fin 64) : Fin 256 := ⟨192 + j.val, by omega⟩

/-! ## The three joins, read at an entry -/

/-- The joined row on its first 64 entries is the input row. -/
theorem cat_lo (p : Fin 262144) (a : Fin 64) : val_main_v0 (F := Ideal) x0 x1 (ix2 p (lo a)) = x0 (ix2 p a) := by
  unfold val_main_v0
  exact concatenate_pair_apply_left 1 x0 x1 concatenates_S262144x64_S262144x64_S262144x128_d1 (ix2 p (lo a)) rfl (ix2 p a)
    (fun b => match b with | ⟨0, _⟩ => rfl | ⟨1, _⟩ => rfl)

/-- The joined row on its last 64 entries is the hidden row. -/
theorem cat_hi (p : Fin 262144) (a : Fin 64) : val_main_v0 (F := Ideal) x0 x1 (ix2 p (hi a)) = x1 (ix2 p a) := by
  unfold val_main_v0
  exact concatenate_pair_apply_right 1 x0 x1 concatenates_S262144x64_S262144x64_S262144x128_d1 (ix2 p (hi a)) rfl rfl (ix2 p a)
    (fun b hb => match b, hb with | ⟨0, _⟩, _ => rfl | ⟨1, _⟩, hb => absurd rfl hb)
    (by show a.val + 64 = 64 + a.val; omega)

/-- Gate 0's columns of the joined weights. -/
theorem wcat0 (k : Fin 128) (j : Fin 64) : val_main_v3 (F := Ideal) x4 x6 x8 x10 (ix2 k (c0 j)) = x4 (ix2 k j) := by
  unfold val_main_v3
  exact concatenate_apply_piece 1 [⟨S128x64, x4⟩, ⟨S128x64, x6⟩, ⟨S128x64, x8⟩, ⟨S128x64, x10⟩] concatenates_S128x64_S128x64_S128x64_S128x64_S128x256_d1 (ix2 k (c0 j)) 0 (by show 0 < 4; omega) S128x64 x4 rfl rfl 0 rfl (ix2 k j)
    (fun b hb => match b, hb with | ⟨0, _⟩, _ => rfl | ⟨1, _⟩, hb => absurd rfl hb)
    (by show 0 + j.val = j.val; omega)
/-- Gate 1's. -/
theorem wcat1 (k : Fin 128) (j : Fin 64) : val_main_v3 (F := Ideal) x4 x6 x8 x10 (ix2 k (c1 j)) = x6 (ix2 k j) := by
  unfold val_main_v3
  exact concatenate_apply_piece 1 [⟨S128x64, x4⟩, ⟨S128x64, x6⟩, ⟨S128x64, x8⟩, ⟨S128x64, x10⟩] concatenates_S128x64_S128x64_S128x64_S128x64_S128x256_d1 (ix2 k (c1 j)) 1 (by show 1 < 4; omega) S128x64 x6 rfl rfl 64 rfl (ix2 k j)
    (fun b hb => match b, hb with | ⟨0, _⟩, _ => rfl | ⟨1, _⟩, hb => absurd rfl hb)
    rfl
/-- Gate 2's. -/
theorem wcat2 (k : Fin 128) (j : Fin 64) : val_main_v3 (F := Ideal) x4 x6 x8 x10 (ix2 k (c2 j)) = x8 (ix2 k j) := by
  unfold val_main_v3
  exact concatenate_apply_piece 1 [⟨S128x64, x4⟩, ⟨S128x64, x6⟩, ⟨S128x64, x8⟩, ⟨S128x64, x10⟩] concatenates_S128x64_S128x64_S128x64_S128x64_S128x256_d1 (ix2 k (c2 j)) 2 (by show 2 < 4; omega) S128x64 x8 rfl rfl 128 rfl (ix2 k j)
    (fun b hb => match b, hb with | ⟨0, _⟩, _ => rfl | ⟨1, _⟩, hb => absurd rfl hb)
    rfl
/-- Gate 3's. -/
theorem wcat3 (k : Fin 128) (j : Fin 64) : val_main_v3 (F := Ideal) x4 x6 x8 x10 (ix2 k (c3 j)) = x10 (ix2 k j) := by
  unfold val_main_v3
  exact concatenate_apply_piece 1 [⟨S128x64, x4⟩, ⟨S128x64, x6⟩, ⟨S128x64, x8⟩, ⟨S128x64, x10⟩] concatenates_S128x64_S128x64_S128x64_S128x64_S128x256_d1 (ix2 k (c3 j)) 3 (by show 3 < 4; omega) S128x64 x10 rfl rfl 192 rfl (ix2 k j)
    (fun b hb => match b, hb with | ⟨0, _⟩, _ => rfl | ⟨1, _⟩, hb => absurd rfl hb)
    rfl

/-- Gate 0's entries of the joined bias. -/
theorem bcat0 (j : Fin 64) : val_main_v4 (F := Ideal) x5 x7 x9 x11 (ix1 (c0 j)) = x5 (ix1 j) := by
  unfold val_main_v4
  exact concatenate_apply_piece 0 [⟨S64, x5⟩, ⟨S64, x7⟩, ⟨S64, x9⟩, ⟨S64, x11⟩] concatenates_S64_S64_S64_S64_S256_d0 (ix1 (c0 j)) 0 (by show 0 < 4; omega) S64 x5 rfl rfl 0 rfl (ix1 j)
    (fun b hb => match b, hb with | ⟨0, _⟩, hb => absurd rfl hb)
    (by show 0 + j.val = j.val; omega)
/-- Gate 1's. -/
theorem bcat1 (j : Fin 64) : val_main_v4 (F := Ideal) x5 x7 x9 x11 (ix1 (c1 j)) = x7 (ix1 j) := by
  unfold val_main_v4
  exact concatenate_apply_piece 0 [⟨S64, x5⟩, ⟨S64, x7⟩, ⟨S64, x9⟩, ⟨S64, x11⟩] concatenates_S64_S64_S64_S64_S256_d0 (ix1 (c1 j)) 1 (by show 1 < 4; omega) S64 x7 rfl rfl 64 rfl (ix1 j)
    (fun b hb => match b, hb with | ⟨0, _⟩, hb => absurd rfl hb)
    rfl
/-- Gate 2's. -/
theorem bcat2 (j : Fin 64) : val_main_v4 (F := Ideal) x5 x7 x9 x11 (ix1 (c2 j)) = x9 (ix1 j) := by
  unfold val_main_v4
  exact concatenate_apply_piece 0 [⟨S64, x5⟩, ⟨S64, x7⟩, ⟨S64, x9⟩, ⟨S64, x11⟩] concatenates_S64_S64_S64_S64_S256_d0 (ix1 (c2 j)) 2 (by show 2 < 4; omega) S64 x9 rfl rfl 128 rfl (ix1 j)
    (fun b hb => match b, hb with | ⟨0, _⟩, hb => absurd rfl hb)
    rfl
/-- Gate 3's. -/
theorem bcat3 (j : Fin 64) : val_main_v4 (F := Ideal) x5 x7 x9 x11 (ix1 (c3 j)) = x11 (ix1 j) := by
  unfold val_main_v4
  exact concatenate_apply_piece 0 [⟨S64, x5⟩, ⟨S64, x7⟩, ⟨S64, x9⟩, ⟨S64, x11⟩] concatenates_S64_S64_S64_S64_S256_d0 (ix1 (c3 j)) 3 (by show 3 < 4; omega) S64 x11 rfl rfl 192 rfl (ix1 j)
    (fun b hb => match b, hb with | ⟨0, _⟩, hb => absurd rfl hb)
    rfl

/-! ## The product plus the bias, at row `p` and joined column `q` -/

/-- The one matrix product over the joined row, split into its input half and its hidden half, plus the bias. -/
theorem pre_at (p : Fin 262144) (q : Fin 256) :
    val_main_v8 (F := Ideal) x0 x1 x3 x4 x5 x6 x7 x8 x9 x10 x11 (ix2 p q)
      = (∑ a : Fin 64, (x0 (ix2 p a) * x3 (ix2 p 0)) * val_main_v3 (F := Ideal) x4 x6 x8 x10 (ix2 (lo a) q)
          + ∑ a : Fin 64, (x1 (ix2 p a) * x3 (ix2 p 0)) * val_main_v3 (F := Ideal) x4 x6 x8 x10 (ix2 (hi a) q))
        + val_main_v4 (F := Ideal) x5 x7 x9 x11 (ix1 q) := by
  have e1 : ∀ k : Fin 128, lidx_main_v5 (ix2 p q) k = ix2 p k := fun k => funext fun a => Fin.ext (by
    match a with
    | ⟨0, _⟩ => rfl
    | ⟨1, _⟩ => rfl)
  have e2 : ∀ k : Fin 128, ridx_main_v5 (ix2 p q) k = ix2 k q := fun k => funext fun a => Fin.ext (by
    match a with
    | ⟨0, _⟩ => rfl
    | ⟨1, _⟩ => rfl)
  have e3 : idx_main_v6 (idx_main_v7 (ix2 p q)) = ix1 q := funext fun a => Fin.ext (by
    match a with
    | ⟨0, _⟩ => rfl)
  have e4 : ∀ k : Fin 128, idx_main_v1 (ix2 p k) = ix2 p 0 := fun k => funext fun a => Fin.ext (by
    match a with
    | ⟨0, _⟩ => rfl
    | ⟨1, _⟩ => rfl)
  rw [val_main_v8_apply, val_main_v5_apply, val_main_v7_apply, val_main_v6_apply, e3, sum_halves]
  simp only [e1, e2, e4, val_main_v2_apply, val_main_v1_apply, cat_lo, cat_hi, Ideal.mulf_def, Ideal.addf_def]

/-! ## The four gates -/

theorem gate_i_at (p : Fin 262144) (j : Fin 64) :
    val_main_v9 (F := Ideal) x0 x1 x3 x4 x5 x6 x7 x8 x9 x10 x11 (ix2 p j) = gate x0 x1 x3 x4 x5 p j := by
  have e : idx_main_v9 (ix2 p j) = ix2 p (c0 j) := funext fun a => Fin.ext (by
    match a with
    | ⟨0, _⟩ => rfl
    | ⟨1, _⟩ => rfl)
  rw [val_main_v9_apply, e, pre_at]
  simp only [gate, wcat0, bcat0]

theorem gate_f_at (p : Fin 262144) (j : Fin 64) :
    val_main_v10 (F := Ideal) x0 x1 x3 x4 x5 x6 x7 x8 x9 x10 x11 (ix2 p j) = gate x0 x1 x3 x6 x7 p j := by
  have e : idx_main_v10 (ix2 p j) = ix2 p (c1 j) := funext fun a => Fin.ext (by
    match a with
    | ⟨0, _⟩ => rfl
    | ⟨1, _⟩ => rfl)
  rw [val_main_v10_apply, e, pre_at]
  simp only [gate, wcat1, bcat1]

theorem gate_o_at (p : Fin 262144) (j : Fin 64) :
    val_main_v11 (F := Ideal) x0 x1 x3 x4 x5 x6 x7 x8 x9 x10 x11 (ix2 p j) = gate x0 x1 x3 x8 x9 p j := by
  have e : idx_main_v11 (ix2 p j) = ix2 p (c2 j) := funext fun a => Fin.ext (by
    match a with
    | ⟨0, _⟩ => rfl
    | ⟨1, _⟩ => rfl)
  rw [val_main_v11_apply, e, pre_at]
  simp only [gate, wcat2, bcat2]

theorem gate_g_at (p : Fin 262144) (j : Fin 64) :
    val_main_v12 (F := Ideal) x0 x1 x3 x4 x5 x6 x7 x8 x9 x10 x11 (ix2 p j) = gate x0 x1 x3 x10 x11 p j := by
  have e : idx_main_v12 (ix2 p j) = ix2 p (c3 j) := funext fun a => Fin.ext (by
    match a with
    | ⟨0, _⟩ => rfl
    | ⟨1, _⟩ => rfl)
  rw [val_main_v12_apply, e, pre_at]
  simp only [gate, wcat3, bcat3]

/-! ## The three sigmoids -/

theorem sig_i (i : S262144x64.Idx) :
    val_main_v18 (F := Ideal) x0 x1 x3 x4 x5 x6 x7 x8 x9 x10 x11 i = Ideal.logistic (val_main_v9 (F := Ideal) x0 x1 x3 x4 x5 x6 x7 x8 x9 x10 x11 i) := by
  rw [val_main_v18_apply, val_main_v17_apply, val_main_cst_0_apply, val_main_v16_apply, val_main_v15_apply,
    val_main_cst_apply, val_main_v14_apply, val_main_v13_apply]
  exact logistic_spelled _

theorem sig_f (i : S262144x64.Idx) :
    val_main_v24 (F := Ideal) x0 x1 x3 x4 x5 x6 x7 x8 x9 x10 x11 i = Ideal.logistic (val_main_v10 (F := Ideal) x0 x1 x3 x4 x5 x6 x7 x8 x9 x10 x11 i) := by
  rw [val_main_v24_apply, val_main_v23_apply, val_main_cst_2_apply, val_main_v22_apply, val_main_v21_apply,
    val_main_cst_1_apply, val_main_v20_apply, val_main_v19_apply]
  exact logistic_spelled _

theorem sig_o (i : S262144x64.Idx) :
    val_main_v30 (F := Ideal) x0 x1 x3 x4 x5 x6 x7 x8 x9 x10 x11 i = Ideal.logistic (val_main_v11 (F := Ideal) x0 x1 x3 x4 x5 x6 x7 x8 x9 x10 x11 i) := by
  rw [val_main_v30_apply, val_main_v29_apply, val_main_cst_4_apply, val_main_v28_apply, val_main_v27_apply,
    val_main_cst_3_apply, val_main_v26_apply, val_main_v25_apply]
  exact logistic_spelled _

/-! ## The two results -/

/-- The reference's second result is the new cell state. -/
theorem ref_cell : val_main_v34 (F := Ideal) x0 x1 x2 x3 x4 x5 x6 x7 x8 x9 x10 x11 = cell x0 x1 x2 x3 x4 x6 x10 x5 x7 x11 := by
  funext i
  obtain ⟨p, j, rfl⟩ : ∃ (p : Fin 262144) (j : Fin 64), i = ix2 p j := ⟨i 0, i 1, eq_ix2 i⟩
  rw [val_main_v34_apply, val_main_v32_apply, val_main_v33_apply, sig_f, sig_i, val_main_v31_apply, gate_f_at, gate_i_at, gate_g_at]
  rfl

/-- The reference's first result is the new hidden state. -/
theorem ref_hidden : val_main_v36 (F := Ideal) x0 x1 x2 x3 x4 x5 x6 x7 x8 x9 x10 x11 = hidden x0 x1 x2 x3 x4 x6 x8 x10 x5 x7 x9 x11 := by
  funext i
  obtain ⟨p, j, rfl⟩ : ∃ (p : Fin 262144) (j : Fin 64), i = ix2 p j := ⟨i 0, i 1, eq_ix2 i⟩
  rw [val_main_v36_apply, val_main_v35_apply, sig_o, gate_o_at, ref_cell]
  rfl

end Cert.ReferenceIdeal.CellRef

end
-- ==== Proof.CellBlocks.lean ====
/-
  The blocks the kernel body sees at a grid point, as entries of the argument arrays.

  The grid has 32 points. At point `t` the input, hidden-state, cell-state and scale windows hold rows
  `8192 t .. 8192 t + 8191` of their arrays. Before the region the host cuts each gate's 128-row weight matrix into its
  first and last 64 rows and gives each 64-entry bias a leading unit axis; the weight and bias windows hold those
  whole, at every point. A block's coordinate along an axis is always  block index × block size + 1 × the coordinate
  inside the block.
-/
import proofs.«127983_j19456201851160_1_alg».proof.Proof.Gen.KernelIdeal.Value
import proofs.«127983_j19456201851160_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.CellBlocks

open Cert.KernelIdeal Cert.KernelIdeal.Gen Idealize.ShloMosaic Idealize.ShloMosaic.TcCoe Idealize.SL.Sem Idealize.ShloMosaic.ValueIdx
open Idealize.ShloMosaic.StableHlo
open Cert.LstmCell

variable (m : (ℓ : Loc nD τ sig) → Buf (Elt Ideal) ℓ)

/-! ## The arrays the host operations write before the region -/

theorem V_v0 (c : Dev nD) : (V m c main_v0 : S64x64.Idx → EReal)
    = extractStridedSlice S64x64 ![0, 0] (m ((c : Thread nD τ).loc main_arg4)) slices_S128x64_S64x64_0_0 := by
  dsimp only [Gen.V, Gen.hostOps0]; after_results
theorem V_v1 (c : Dev nD) : (V m c main_v1 : S64x64.Idx → EReal)
    = extractStridedSlice S64x64 ![64, 0] (m ((c : Thread nD τ).loc main_arg4)) slices_S128x64_S64x64_64_0 := by
  dsimp only [Gen.V, Gen.hostOps0]; after_results
theorem V_v2 (c : Dev nD) : (V m c main_v2 : S64x64.Idx → EReal)
    = extractStridedSlice S64x64 ![0, 0] (m ((c : Thread nD τ).loc main_arg6)) slices_S128x64_S64x64_0_0 := by
  dsimp only [Gen.V, Gen.hostOps0]; after_results
theorem V_v3 (c : Dev nD) : (V m c main_v3 : S64x64.Idx → EReal)
    = extractStridedSlice S64x64 ![64, 0] (m ((c : Thread nD τ).loc main_arg6)) slices_S128x64_S64x64_64_0 := by
  dsimp only [Gen.V, Gen.hostOps0]; after_results
theorem V_v4 (c : Dev nD) : (V m c main_v4 : S64x64.Idx → EReal)
    = extractStridedSlice S64x64 ![0, 0] (m ((c : Thread nD τ).loc main_arg8)) slices_S128x64_S64x64_0_0 := by
  dsimp only [Gen.V, Gen.hostOps0]; after_results
theorem V_v5 (c : Dev nD) : (V m c main_v5 : S64x64.Idx → EReal)
    = extractStridedSlice S64x64 ![64, 0] (m ((c : Thread nD τ).loc main_arg8)) slices_S128x64_S64x64_64_0 := by
  dsimp only [Gen.V, Gen.hostOps0]; after_results
theorem V_v6 (c : Dev nD) : (V m c main_v6 : S64x64.Idx → EReal)
    = extractStridedSlice S64x64 ![0, 0] (m ((c : Thread nD τ).loc main_arg10)) slices_S128x64_S64x64_0_0 := by
  dsimp only [Gen.V, Gen.hostOps0]; after_results
theorem V_v7 (c : Dev nD) : (V m c main_v7 : S64x64.Idx → EReal)
    = extractStridedSlice S64x64 ![64, 0] (m ((c : Thread nD τ).loc main_arg10)) slices_S128x64_S64x64_64_0 := by
  dsimp only [Gen.V, Gen.hostOps0]; after_results
theorem V_v8 (c : Dev nD) : (V m c main_v8 : S1x64.Idx → EReal)
    = shapeCast S1x64 (m ((c : Thread nD τ).loc main_arg5)) shapeCasts_S64_S1x64 := by
  dsimp only [Gen.V, Gen.hostOps0]; after_results; rfl
theorem V_v9 (c : Dev nD) : (V m c main_v9 : S1x64.Idx → EReal)
    = shapeCast S1x64 (m ((c : Thread nD τ).loc main_arg7)) shapeCasts_S64_S1x64 := by
  dsimp only [Gen.V, Gen.hostOps0]; after_results; rfl
theorem V_v10 (c : Dev nD) : (V m c main_v10 : S1x64.Idx → EReal)
    = shapeCast S1x64 (m ((c : Thread nD τ).loc main_arg9)) shapeCasts_S64_S1x64 := by
  dsimp only [Gen.V, Gen.hostOps0]; after_results; rfl
theorem V_v11 (c : Dev nD) : (V m c main_v11 : S1x64.Idx → EReal)
    = shapeCast S1x64 (m ((c : Thread nD τ).loc main_arg11)) shapeCasts_S64_S1x64 := by
  dsimp only [Gen.V, Gen.hostOps0]; after_results; rfl

/-! ## The grid's points and the printed index maps -/

/-- Row `r` of block `t` is row `8192 t + r` of the batch. -/
def row (t : Fin cfg0.N) (r : Fin 8192) : Fin 262144 :=
  ⟨8192 * t.val + r.val, by have h := t.isLt; have e : cfg0.N = 32 := N_0; omega⟩

@[simp] theorem row_val (t : Fin cfg0.N) (r : Fin 8192) : (row t r).val = 8192 * t.val + r.val := rfl

/-- The printed index maps, decided over the 32 grid points: the four row-blocked inputs and the two outputs are at
    block `(t, 0)`, the weight halves and the bias rows at block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_16.index t (0 : Fin 2) = t.val
    ∧ win0_16.index t (1 : Fin 2) = 0
    ∧ win0_17.index t (0 : Fin 2) = t.val
    ∧ win0_17.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-! ## Each input block at an entry -/

/-- The input block's row `r` is the batch's row `8192 t + r`. -/
theorem xblk_at (c : Dev nD) (t : Fin cfg0.N) (r : Fin 8192) (a : Fin 64) :
    (iblk m c 0 t : Vec Ideal S8192x64 .f32) (ix2 r a) = (m ((c : Thread nD τ).loc main_arg0) : Rows) (ix2 (row t r) a) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  refine (congrFun (V_main_arg0 m c) _).trans (congrArg _ (funext fun d => Fin.ext ?_))
  match d with
  | ⟨0, _⟩ => show win0_0.index t (0 : Fin 2) * 8192 + 1 * r.val = 8192 * t.val + r.val; rw [e0_0]; omega
  | ⟨1, _⟩ => show win0_0.index t (1 : Fin 2) * 64 + 1 * a.val = a.val; rw [e0_1]; omega

/-- The hidden-state block's row `r` is the batch's row `8192 t + r`. -/
theorem hblk_at (c : Dev nD) (t : Fin cfg0.N) (r : Fin 8192) (a : Fin 64) :
    (iblk m c 1 t : Vec Ideal S8192x64 .f32) (ix2 r a) = (m ((c : Thread nD τ).loc main_arg1) : Rows) (ix2 (row t r) a) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  refine (congrFun (V_main_arg1 m c) _).trans (congrArg _ (funext fun d => Fin.ext ?_))
  match d with
  | ⟨0, _⟩ => show win0_1.index t (0 : Fin 2) * 8192 + 1 * r.val = 8192 * t.val + r.val; rw [e1_0]; omega
  | ⟨1, _⟩ => show win0_1.index t (1 : Fin 2) * 64 + 1 * a.val = a.val; rw [e1_1]; omega

/-- The cell-state block's row `r` is the batch's row `8192 t + r`. -/
theorem cblk_at (c : Dev nD) (t : Fin cfg0.N) (r : Fin 8192) (a : Fin 64) :
    (iblk m c 2 t : Vec Ideal S8192x64 .f32) (ix2 r a) = (m ((c : Thread nD τ).loc main_arg2) : Rows) (ix2 (row t r) a) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  refine (congrFun (V_main_arg2 m c) _).trans (congrArg _ (funext fun d => Fin.ext ?_))
  match d with
  | ⟨0, _⟩ => show win0_2.index t (0 : Fin 2) * 8192 + 1 * r.val = 8192 * t.val + r.val; rw [e2_0]; omega
  | ⟨1, _⟩ => show win0_2.index t (1 : Fin 2) * 64 + 1 * a.val = a.val; rw [e2_1]; omega

/-- The scale block's row `r` is the batch's row `8192 t + r`. -/
theorem mblk_at (c : Dev nD) (t : Fin cfg0.N) (r : Fin 8192) :
    (iblk m c 3 t : Vec Ideal S8192x1 .f32) (ix2 r 0) = (m ((c : Thread nD τ).loc main_arg3) : Col) (ix2 (row t r) 0) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  refine (congrFun (V_main_arg3 m c) _).trans (congrArg _ (funext fun d => Fin.ext ?_))
  match d with
  | ⟨0, _⟩ => show win0_3.index t (0 : Fin 2) * 8192 + 1 * r.val = 8192 * t.val + r.val; rw [e3_0]; omega
  | ⟨1, _⟩ => show win0_3.index t (1 : Fin 2) * 1 + 1 * 0 = 0; rw [e3_1]

/-- The input gate's input-half weights are rows 0..63 of its weight matrix. -/
theorem w4_at (c : Dev nD) (t : Fin cfg0.N) (a j : Fin 64) :
    (iblk m c 4 t : Vec Ideal S64x64 .f32) (ix2 a j) = (m ((c : Thread nD τ).loc main_arg4) : Wt) (ix2 (lo a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v0 : S64x64.Idx → EReal) _ = _
  rw [V_v0]
  refine extractStridedSlice_apply _ _ _ _ _ fun d => ?_
  match d with
  | ⟨0, _⟩ => show a.val = 0 + (win0_4.index t (0 : Fin 2) * 64 + 1 * a.val); rw [e4_0]; omega
  | ⟨1, _⟩ => show j.val = 0 + (win0_4.index t (1 : Fin 2) * 64 + 1 * j.val); rw [e4_1]; omega

/-- The input gate's hidden-half weights are rows 64..127 of its weight matrix. -/
theorem w5_at (c : Dev nD) (t : Fin cfg0.N) (a j : Fin 64) :
    (iblk m c 5 t : Vec Ideal S64x64 .f32) (ix2 a j) = (m ((c : Thread nD τ).loc main_arg4) : Wt) (ix2 (hi a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v1 : S64x64.Idx → EReal) _ = _
  rw [V_v1]
  refine extractStridedSlice_apply _ _ _ _ _ fun d => ?_
  match d with
  | ⟨0, _⟩ => show 64 + a.val = 64 + (win0_5.index t (0 : Fin 2) * 64 + 1 * a.val); rw [e5_0]; omega
  | ⟨1, _⟩ => show j.val = 0 + (win0_5.index t (1 : Fin 2) * 64 + 1 * j.val); rw [e5_1]; omega

/-- The forget gate's input-half weights are rows 0..63 of its weight matrix. -/
theorem w6_at (c : Dev nD) (t : Fin cfg0.N) (a j : Fin 64) :
    (iblk m c 6 t : Vec Ideal S64x64 .f32) (ix2 a j) = (m ((c : Thread nD τ).loc main_arg6) : Wt) (ix2 (lo a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v2 : S64x64.Idx → EReal) _ = _
  rw [V_v2]
  refine extractStridedSlice_apply _ _ _ _ _ fun d => ?_
  match d with
  | ⟨0, _⟩ => show a.val = 0 + (win0_6.index t (0 : Fin 2) * 64 + 1 * a.val); rw [e6_0]; omega
  | ⟨1, _⟩ => show j.val = 0 + (win0_6.index t (1 : Fin 2) * 64 + 1 * j.val); rw [e6_1]; omega

/-- The forget gate's hidden-half weights are rows 64..127 of its weight matrix. -/
theorem w7_at (c : Dev nD) (t : Fin cfg0.N) (a j : Fin 64) :
    (iblk m c 7 t : Vec Ideal S64x64 .f32) (ix2 a j) = (m ((c : Thread nD τ).loc main_arg6) : Wt) (ix2 (hi a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v3 : S64x64.Idx → EReal) _ = _
  rw [V_v3]
  refine extractStridedSlice_apply _ _ _ _ _ fun d => ?_
  match d with
  | ⟨0, _⟩ => show 64 + a.val = 64 + (win0_7.index t (0 : Fin 2) * 64 + 1 * a.val); rw [e7_0]; omega
  | ⟨1, _⟩ => show j.val = 0 + (win0_7.index t (1 : Fin 2) * 64 + 1 * j.val); rw [e7_1]; omega

/-- The output gate's input-half weights are rows 0..63 of its weight matrix. -/
theorem w8_at (c : Dev nD) (t : Fin cfg0.N) (a j : Fin 64) :
    (iblk m c 8 t : Vec Ideal S64x64 .f32) (ix2 a j) = (m ((c : Thread nD τ).loc main_arg8) : Wt) (ix2 (lo a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v4 : S64x64.Idx → EReal) _ = _
  rw [V_v4]
  refine extractStridedSlice_apply _ _ _ _ _ fun d => ?_
  match d with
  | ⟨0, _⟩ => show a.val = 0 + (win0_8.index t (0 : Fin 2) * 64 + 1 * a.val); rw [e8_0]; omega
  | ⟨1, _⟩ => show j.val = 0 + (win0_8.index t (1 : Fin 2) * 64 + 1 * j.val); rw [e8_1]; omega

/-- The output gate's hidden-half weights are rows 64..127 of its weight matrix. -/
theorem w9_at (c : Dev nD) (t : Fin cfg0.N) (a j : Fin 64) :
    (iblk m c 9 t : Vec Ideal S64x64 .f32) (ix2 a j) = (m ((c : Thread nD τ).loc main_arg8) : Wt) (ix2 (hi a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v5 : S64x64.Idx → EReal) _ = _
  rw [V_v5]
  refine extractStridedSlice_apply _ _ _ _ _ fun d => ?_
  match d with
  | ⟨0, _⟩ => show 64 + a.val = 64 + (win0_9.index t (0 : Fin 2) * 64 + 1 * a.val); rw [e9_0]; omega
  | ⟨1, _⟩ => show j.val = 0 + (win0_9.index t (1 : Fin 2) * 64 + 1 * j.val); rw [e9_1]; omega

/-- The candidate gate's input-half weights are rows 0..63 of its weight matrix. -/
theorem w10_at (c : Dev nD) (t : Fin cfg0.N) (a j : Fin 64) :
    (iblk m c 10 t : Vec Ideal S64x64 .f32) (ix2 a j) = (m ((c : Thread nD τ).loc main_arg10) : Wt) (ix2 (lo a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v6 : S64x64.Idx → EReal) _ = _
  rw [V_v6]
  refine extractStridedSlice_apply _ _ _ _ _ fun d => ?_
  match d with
  | ⟨0, _⟩ => show a.val = 0 + (win0_10.index t (0 : Fin 2) * 64 + 1 * a.val); rw [e10_0]; omega
  | ⟨1, _⟩ => show j.val = 0 + (win0_10.index t (1 : Fin 2) * 64 + 1 * j.val); rw [e10_1]; omega

/-- The candidate gate's hidden-half weights are rows 64..127 of its weight matrix. -/
theorem w11_at (c : Dev nD) (t : Fin cfg0.N) (a j : Fin 64) :
    (iblk m c 11 t : Vec Ideal S64x64 .f32) (ix2 a j) = (m ((c : Thread nD τ).loc main_arg10) : Wt) (ix2 (hi a) j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v7 : S64x64.Idx → EReal) _ = _
  rw [V_v7]
  refine extractStridedSlice_apply _ _ _ _ _ fun d => ?_
  match d with
  | ⟨0, _⟩ => show 64 + a.val = 64 + (win0_11.index t (0 : Fin 2) * 64 + 1 * a.val); rw [e11_0]; omega
  | ⟨1, _⟩ => show j.val = 0 + (win0_11.index t (1 : Fin 2) * 64 + 1 * j.val); rw [e11_1]; omega

/-- The input gate's bias row is its bias. -/
theorem b12_at (c : Dev nD) (t : Fin cfg0.N) (j : Fin 64) :
    (iblk m c 12 t : Vec Ideal S1x64 .f32) (ix2 0 j) = (m ((c : Thread nD τ).loc main_arg5) : Bias) (ix1 j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v8 : S1x64.Idx → EReal) _ = _
  rw [V_v8]
  refine shapeCast_apply _ _ _ _ ?_
  refine (Shape.rowMajor_val_one (d := ![64]) (ix1 j)).trans (Eq.trans ?_ (Shape.rowMajor_val_two (d := ![1, 64]) _).symm)
  show j.val = (win0_12.index t (0 : Fin 2) * 1 + 1 * 0) * 64 + (win0_12.index t (1 : Fin 2) * 64 + 1 * j.val)
  rw [e12_0, e12_1]; omega

/-- The forget gate's bias row is its bias. -/
theorem b13_at (c : Dev nD) (t : Fin cfg0.N) (j : Fin 64) :
    (iblk m c 13 t : Vec Ideal S1x64 .f32) (ix2 0 j) = (m ((c : Thread nD τ).loc main_arg7) : Bias) (ix1 j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v9 : S1x64.Idx → EReal) _ = _
  rw [V_v9]
  refine shapeCast_apply _ _ _ _ ?_
  refine (Shape.rowMajor_val_one (d := ![64]) (ix1 j)).trans (Eq.trans ?_ (Shape.rowMajor_val_two (d := ![1, 64]) _).symm)
  show j.val = (win0_13.index t (0 : Fin 2) * 1 + 1 * 0) * 64 + (win0_13.index t (1 : Fin 2) * 64 + 1 * j.val)
  rw [e13_0, e13_1]; omega

/-- The output gate's bias row is its bias. -/
theorem b14_at (c : Dev nD) (t : Fin cfg0.N) (j : Fin 64) :
    (iblk m c 14 t : Vec Ideal S1x64 .f32) (ix2 0 j) = (m ((c : Thread nD τ).loc main_arg9) : Bias) (ix1 j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v10 : S1x64.Idx → EReal) _ = _
  rw [V_v10]
  refine shapeCast_apply _ _ _ _ ?_
  refine (Shape.rowMajor_val_one (d := ![64]) (ix1 j)).trans (Eq.trans ?_ (Shape.rowMajor_val_two (d := ![1, 64]) _).symm)
  show j.val = (win0_14.index t (0 : Fin 2) * 1 + 1 * 0) * 64 + (win0_14.index t (1 : Fin 2) * 64 + 1 * j.val)
  rw [e14_0, e14_1]; omega

/-- The candidate gate's bias row is its bias. -/
theorem b15_at (c : Dev nD) (t : Fin cfg0.N) (j : Fin 64) :
    (iblk m c 15 t : Vec Ideal S1x64 .f32) (ix2 0 j) = (m ((c : Thread nD τ).loc main_arg11) : Bias) (ix1 j) := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  unfold iblk
  rw [View.read_apply]
  show (V m c main_v11 : S1x64.Idx → EReal) _ = _
  rw [V_v11]
  refine shapeCast_apply _ _ _ _ ?_
  refine (Shape.rowMajor_val_one (d := ![64]) (ix1 j)).trans (Eq.trans ?_ (Shape.rowMajor_val_two (d := ![1, 64]) _).symm)
  show j.val = (win0_15.index t (0 : Fin 2) * 1 + 1 * 0) * 64 + (win0_15.index t (1 : Fin 2) * 64 + 1 * j.val)
  rw [e15_0, e15_1]; omega

end Cert.KernelIdeal.CellBlocks

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.CellPoint.lean ====
/-
  The kernel body's two stored values, read at one entry of the block.

  At a grid point the body holds a block of 8192 rows of the input, of the previous hidden state and of the previous
  cell state, the 8192 per-row scales, the eight 64-by-64 halves of the four gates' weights and the four biases as
  1-by-64 rows. It scales the input rows and the hidden rows by the row's scale, multiplies each by the gate's
  matching weight half (a matrix product into a zero accumulator, which on the extended reals is the plain sum
  over the 64 contracted entries), adds the two products and the bias, and combines the four gates.
  Changes of float format are the identity on the extended reals, and a shape cast to the same shape is the identity.
-/
import proofs.«127983_j19456201851160_1_alg».proof.Proof.Gen.KernelIdeal.Skeleton
import proofs.«127983_j19456201851160_1_alg».proof.Proof.LibDot2
import Idealize.ShloMosaic.Lib.Pipeline.Value
import Idealize.ShloMosaic.Lib.ValueIdx
import Idealize.ShloMosaic.PureOps.Ideal.Laws

noncomputable section

namespace Cert.KernelIdeal.CellPoint

open Cert.KernelIdeal Cert.KernelIdeal.Gen Idealize.ShloMosaic Idealize.ShloMosaic.ValueIdx

/-! ## The matrix product's dimension numbers: rows from the left operand, columns from the right -/

theorem dot_l0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem dot_l1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem dot_r0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem dot_r1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- A block's product with a weight half into the zero accumulator, at row `r` and column `j`: the sum over the 64
    contracted entries. -/
theorem matmul_at (l : FVec Ideal S8192x64 .bf16) (w : FVec Ideal S64x64 .bf16) (r : Fin 8192) (j : Fin 64) :
    matmul dot_S8192x64_S64x64_S8192x64_1_0_0_1_n_n none l w (constant (F := Ideal) S8192x64 .f32 0x00000000#32) (ix2 r j)
      = ∑ a : Fin 64, l (ix2 r a) * w (ix2 a j) :=
  Cert.Lib.Dot2.matmul_zero_ix2 dot_S8192x64_S64x64_S8192x64_1_0_0_1_n_n none rfl rfl dot_l0 dot_l1 dot_r0 dot_r1 l w r j

/-! ## The re-laid pieces -/

/-- The per-row scale spread over the 64 columns. -/
theorem scale_at (v : S8192x1.Idx → EReal) (h : S8192x1.Broadcasts S8192x64) (r : Fin 8192) (a : Fin 64) :
    broadcastTo S8192x64 v h (ix2 r a) = v (ix2 r 0) :=
  broadcastTo_apply v h (ix2 r a) (ix2 r 0) (fun d => match d with
    | ⟨0, _⟩ => by show r.val = if (8192 : Nat) = 1 then 0 else r.val; rw [if_neg (by decide)]
    | ⟨1, _⟩ => by show 0 = if (1 : Nat) = 1 then 0 else a.val; rw [if_pos rfl])

/-- A bias row spread over the 8192 rows. -/
theorem bias_at (v : S1x64.Idx → EReal) (h : S1x64.Broadcasts S8192x64) (r : Fin 8192) (j : Fin 64) :
    broadcastTo S8192x64 v h (ix2 r j) = v (ix2 0 j) :=
  broadcastTo_apply v h (ix2 r j) (ix2 0 j) (fun d => match d with
    | ⟨0, _⟩ => by show 0 = if (1 : Nat) = 1 then 0 else r.val; rw [if_pos rfl]
    | ⟨1, _⟩ => by show j.val = if (64 : Nat) = 1 then 0 else j.val; rw [if_neg (by decide)])

/-- The scaled input block, at an entry. -/
theorem pay1_at (v0 : Vec Ideal S8192x1 .f32) (v1 : Vec Ideal S8192x64 .f32) (r : Fin 8192) (a : Fin 64) :
    k0_pay1 v0 v1 (ix2 r a) = v1 (ix2 r a) * v0 (ix2 r 0) := by
  unfold k0_pay1
  rw [truncf_apply, mulf_apply, scale_at]

/-- The scaled hidden block, at an entry. -/
theorem pay2_at (v0 : Vec Ideal S8192x1 .f32) (v5 : Vec Ideal S8192x64 .f32) (r : Fin 8192) (a : Fin 64) :
    k0_pay2 v0 v5 (ix2 r a) = v5 (ix2 r a) * v0 (ix2 r 0) := by
  unfold k0_pay2
  rw [truncf_apply, mulf_apply, scale_at]

/-- A weight half as the body holds it is the loaded half. -/
theorem pay3_at (w : Vec Ideal S64x64 .f32) (i : S64x64.Idx) : k0_pay3 w i = w i := by
  unfold k0_pay3; rw [truncf_apply, shapeCast_self]
theorem pay4_at (w : Vec Ideal S64x64 .f32) (i : S64x64.Idx) : k0_pay4 w i = w i := by
  unfold k0_pay4; rw [truncf_apply, shapeCast_self]
theorem pay5_at (w : Vec Ideal S64x64 .f32) (i : S64x64.Idx) : k0_pay5 w i = w i := by
  unfold k0_pay5; rw [truncf_apply, shapeCast_self]
theorem pay6_at (w : Vec Ideal S64x64 .f32) (i : S64x64.Idx) : k0_pay6 w i = w i := by
  unfold k0_pay6; rw [truncf_apply, shapeCast_self]
theorem pay7_at (w : Vec Ideal S64x64 .f32) (i : S64x64.Idx) : k0_pay7 w i = w i := by
  unfold k0_pay7; rw [truncf_apply, shapeCast_self]
theorem pay8_at (w : Vec Ideal S64x64 .f32) (i : S64x64.Idx) : k0_pay8 w i = w i := by
  unfold k0_pay8; rw [truncf_apply, shapeCast_self]

/-! ## A gate and the two stored values -/

/-- A gate's pre-activation over one block: row `r` of the block, column `j`. -/
def bgate (x h : S8192x64.Idx → EReal) (mk : S8192x1.Idx → EReal) (Wx Wh : S64x64.Idx → EReal) (b : S1x64.Idx → EReal)
    (r : Fin 8192) (j : Fin 64) : EReal :=
  (∑ a : Fin 64, (x (ix2 r a) * mk (ix2 r 0)) * Wx (ix2 a j)
    + ∑ a : Fin 64, (h (ix2 r a) * mk (ix2 r 0)) * Wh (ix2 a j)) + b (ix2 0 j)

/-- The product of the scaled input block with a weight half, as the sum the gate is written with. -/
theorem xprod_at (x : Vec Ideal S8192x64 .f32) (mk : Vec Ideal S8192x1 .f32) (w : FVec Ideal S64x64 .bf16) (r : Fin 8192) (j : Fin 64) :
    matmul dot_S8192x64_S64x64_S8192x64_1_0_0_1_n_n none (k0_pay1 mk x) w (constant (F := Ideal) S8192x64 .f32 0x00000000#32) (ix2 r j)
      = ∑ a : Fin 64, (x (ix2 r a) * mk (ix2 r 0)) * w (ix2 a j) := by
  rw [matmul_at]
  exact Finset.sum_congr rfl fun a _ => by rw [pay1_at]

/-- The same for the scaled hidden block. -/
theorem hprod_at (h : Vec Ideal S8192x64 .f32) (mk : Vec Ideal S8192x1 .f32) (w : FVec Ideal S64x64 .bf16) (r : Fin 8192) (j : Fin 64) :
    matmul dot_S8192x64_S64x64_S8192x64_1_0_0_1_n_n none (k0_pay2 mk h) w (constant (F := Ideal) S8192x64 .f32 0x00000000#32) (ix2 r j)
      = ∑ a : Fin 64, (h (ix2 r a) * mk (ix2 r 0)) * w (ix2 a j) := by
  rw [matmul_at]
  exact Finset.sum_congr rfl fun a _ => by rw [pay2_at]

/-- The new cell entry over one block. -/
def bcell (x h c : S8192x64.Idx → EReal) (mk : S8192x1.Idx → EReal) (Wix Wih Wfx Wfh Wgx Wgh : S64x64.Idx → EReal)
    (bi bf bg : S1x64.Idx → EReal) (r : Fin 8192) (j : Fin 64) : EReal :=
  Ideal.logistic (bgate x h mk Wfx Wfh bf r j) * c (ix2 r j)
    + Ideal.logistic (bgate x h mk Wix Wih bi r j) * Ideal.tanh (bgate x h mk Wgx Wgh bg r j)

/-- The new hidden entry over one block. -/
def bhidden (x h c : S8192x64.Idx → EReal) (mk : S8192x1.Idx → EReal) (Wix Wih Wfx Wfh Wox Woh Wgx Wgh : S64x64.Idx → EReal)
    (bi bf bo bg : S1x64.Idx → EReal) (r : Fin 8192) (j : Fin 64) : EReal :=
  Ideal.logistic (bgate x h mk Wox Woh bo r j) * Ideal.tanh (bcell x h c mk Wix Wih Wfx Wfh Wgx Wgh bi bf bg r j)

/-- What the body stores into the cell-state block, at an entry: the forget gate's sigmoid times the previous cell
    entry plus the input gate's sigmoid times the candidate's tanh. -/
theorem cell_at (x0 x1 x2 : Vec Ideal S8192x64 .f32) (x3 : Vec Ideal S8192x1 .f32)
    (w4 w5 w6 w7 w10 w11 : Vec Ideal S64x64 .f32) (b12 b13 b15 : Vec Ideal S1x64 .f32) (r : Fin 8192) (j : Fin 64) :
    k0_pay11 (k0_pay1 x3 x0) (k0_pay2 x3 x1) (k0_pay3 w6) (k0_pay4 w7) (k0_pay7 w10) (k0_pay8 w11)
      (k0_pay9 x3 x0 w4) (k0_pay10 x3 x1 w5) b12 b13 b15 x2 (ix2 r j)
    = bcell x0 x1 x2 x3 w4 w5 w6 w7 w10 w11 b12 b13 b15 r j := by
  unfold k0_pay11 k0_pay9 k0_pay10
  simp only [addf_apply, mulf_apply, logistic, tanh, Ideal.logistic_def, Ideal.tanh_def, xprod_at, hprod_at, bias_at,
    shapeCast_self, truncf_apply, pay3_at, pay4_at, pay7_at, pay8_at, bcell, bgate]

/-- What the body stores into the hidden-state block, at an entry: the output gate's sigmoid times the tanh of the
    new cell entry. -/
theorem hidden_at (x0 x1 x2 : Vec Ideal S8192x64 .f32) (x3 : Vec Ideal S8192x1 .f32)
    (w4 w5 w6 w7 w8 w9 w10 w11 : Vec Ideal S64x64 .f32) (b12 b13 b14 b15 : Vec Ideal S1x64 .f32) (r : Fin 8192) (j : Fin 64) :
    k0_pay12 (k0_pay1 x3 x0) (k0_pay2 x3 x1) (k0_pay3 w6) (k0_pay4 w7) (k0_pay5 w8) (k0_pay6 w9) (k0_pay7 w10) (k0_pay8 w11)
      (k0_pay9 x3 x0 w4) (k0_pay10 x3 x1 w5) b12 b13 b14 b15 x2 (ix2 r j)
    = bhidden x0 x1 x2 x3 w4 w5 w6 w7 w8 w9 w10 w11 b12 b13 b14 b15 r j := by
  unfold k0_pay12
  simp only [addf_apply, mulf_apply, logistic, tanh, Ideal.logistic_def, Ideal.tanh_def, xprod_at, hprod_at, bias_at,
    shapeCast_self, pay5_at, pay6_at, cell_at, bhidden, bgate]

end Cert.KernelIdeal.CellPoint

end
-- ==== Proof.CellBridge.lean ====
/-
  A gate computed over one block of rows is the gate of the whole batch at the block's rows.

  If row `r` of a block is row `p` of the batch — the block's input row, hidden row, scale and previous cell entry
  are the batch's at `p` —, the block's two weight halves are rows 0..63 and 64..127 of the gate's weight matrix, and
  the block's 1-by-64 bias row is the gate's bias, then the block-level pre-activation, cell entry and hidden entry at
  `(r, j)` are the batch-level ones at `(p, j)`: term by term the same sums.
-/
import proofs.«127983_j19456201851160_1_alg».proof.Proof.CellPoint
import proofs.«127983_j19456201851160_1_alg».proof.Proof.Spec

noncomputable section

namespace Cert.KernelIdeal.CellBridge

open Cert.KernelIdeal Cert.KernelIdeal.CellPoint Cert.LstmCell Idealize.ShloMosaic Idealize.ShloMosaic.ValueIdx

/-- One gate. -/
theorem bgate_eq_gate (xb hb : S8192x64.Idx → EReal) (mkb : S8192x1.Idx → EReal) (Wxb Whb : S64x64.Idx → EReal) (bb : S1x64.Idx → EReal)
    (x h : Rows) (mk : Col) (W : Wt) (b : Bias) (p : Fin 262144) (r : Fin 8192)
    (hx : ∀ a : Fin 64, xb (ix2 r a) = x (ix2 p a)) (hh : ∀ a : Fin 64, hb (ix2 r a) = h (ix2 p a))
    (hm : mkb (ix2 r 0) = mk (ix2 p 0))
    (hWx : ∀ (a j : Fin 64), Wxb (ix2 a j) = W (ix2 (lo a) j)) (hWh : ∀ (a j : Fin 64), Whb (ix2 a j) = W (ix2 (hi a) j))
    (hb' : ∀ j : Fin 64, bb (ix2 0 j) = b (ix1 j)) (j : Fin 64) :
    bgate xb hb mkb Wxb Whb bb r j = gate x h mk W b p j := by
  unfold bgate gate
  simp only [hx, hh, hm, hWx, hWh, hb']

/-- The new cell entry. -/
theorem bcell_eq_cell (xb hb cb : S8192x64.Idx → EReal) (mkb : S8192x1.Idx → EReal)
    (Wixb Wihb Wfxb Wfhb Wgxb Wghb : S64x64.Idx → EReal) (bib bfb bgb : S1x64.Idx → EReal)
    (x h c : Rows) (mk : Col) (Wi Wf Wg : Wt) (bi bf bg : Bias) (p : Fin 262144) (r : Fin 8192)
    (hx : ∀ a : Fin 64, xb (ix2 r a) = x (ix2 p a)) (hh : ∀ a : Fin 64, hb (ix2 r a) = h (ix2 p a))
    (hc : ∀ j : Fin 64, cb (ix2 r j) = c (ix2 p j)) (hm : mkb (ix2 r 0) = mk (ix2 p 0))
    (hix : ∀ (a j : Fin 64), Wixb (ix2 a j) = Wi (ix2 (lo a) j)) (hih : ∀ (a j : Fin 64), Wihb (ix2 a j) = Wi (ix2 (hi a) j))
    (hfx : ∀ (a j : Fin 64), Wfxb (ix2 a j) = Wf (ix2 (lo a) j)) (hfh : ∀ (a j : Fin 64), Wfhb (ix2 a j) = Wf (ix2 (hi a) j))
    (hgx : ∀ (a j : Fin 64), Wgxb (ix2 a j) = Wg (ix2 (lo a) j)) (hgh : ∀ (a j : Fin 64), Wghb (ix2 a j) = Wg (ix2 (hi a) j))
    (hbi : ∀ j : Fin 64, bib (ix2 0 j) = bi (ix1 j)) (hbf : ∀ j : Fin 64, bfb (ix2 0 j) = bf (ix1 j))
    (hbg : ∀ j : Fin 64, bgb (ix2 0 j) = bg (ix1 j)) (j : Fin 64) :
    bcell xb hb cb mkb Wixb Wihb Wfxb Wfhb Wgxb Wghb bib bfb bgb r j = cell x h c mk Wi Wf Wg bi bf bg (ix2 p j) := by
  unfold bcell
  rw [bgate_eq_gate xb hb mkb Wfxb Wfhb bfb x h mk Wf bf p r hx hh hm hfx hfh hbf j,
    bgate_eq_gate xb hb mkb Wixb Wihb bib x h mk Wi bi p r hx hh hm hix hih hbi j,
    bgate_eq_gate xb hb mkb Wgxb Wghb bgb x h mk Wg bg p r hx hh hm hgx hgh hbg j, hc j]
  rfl

/-- The new hidden entry. -/
theorem bhidden_eq_hidden (xb hb cb : S8192x64.Idx → EReal) (mkb : S8192x1.Idx → EReal)
    (Wixb Wihb Wfxb Wfhb Woxb Wohb Wgxb Wghb : S64x64.Idx → EReal) (bib bfb bob bgb : S1x64.Idx → EReal)
    (x h c : Rows) (mk : Col) (Wi Wf Wo Wg : Wt) (bi bf bo bg : Bias) (p : Fin 262144) (r : Fin 8192)
    (hx : ∀ a : Fin 64, xb (ix2 r a) = x (ix2 p a)) (hh : ∀ a : Fin 64, hb (ix2 r a) = h (ix2 p a))
    (hc : ∀ j : Fin 64, cb (ix2 r j) = c (ix2 p j)) (hm : mkb (ix2 r 0) = mk (ix2 p 0))
    (hix : ∀ (a j : Fin 64), Wixb (ix2 a j) = Wi (ix2 (lo a) j)) (hih : ∀ (a j : Fin 64), Wihb (ix2 a j) = Wi (ix2 (hi a) j))
    (hfx : ∀ (a j : Fin 64), Wfxb (ix2 a j) = Wf (ix2 (lo a) j)) (hfh : ∀ (a j : Fin 64), Wfhb (ix2 a j) = Wf (ix2 (hi a) j))
    (hox : ∀ (a j : Fin 64), Woxb (ix2 a j) = Wo (ix2 (lo a) j)) (hoh : ∀ (a j : Fin 64), Wohb (ix2 a j) = Wo (ix2 (hi a) j))
    (hgx : ∀ (a j : Fin 64), Wgxb (ix2 a j) = Wg (ix2 (lo a) j)) (hgh : ∀ (a j : Fin 64), Wghb (ix2 a j) = Wg (ix2 (hi a) j))
    (hbi : ∀ j : Fin 64, bib (ix2 0 j) = bi (ix1 j)) (hbf : ∀ j : Fin 64, bfb (ix2 0 j) = bf (ix1 j))
    (hbo : ∀ j : Fin 64, bob (ix2 0 j) = bo (ix1 j)) (hbg : ∀ j : Fin 64, bgb (ix2 0 j) = bg (ix1 j)) (j : Fin 64) :
    bhidden xb hb cb mkb Wixb Wihb Wfxb Wfhb Woxb Wohb Wgxb Wghb bib bfb bob bgb r j
      = hidden x h c mk Wi Wf Wo Wg bi bf bo bg (ix2 p j) := by
  unfold bhidden
  rw [bgate_eq_gate xb hb mkb Woxb Wohb bob x h mk Wo bo p r hx hh hm hox hoh hbo j,
    bcell_eq_cell xb hb cb mkb Wixb Wihb Wfxb Wfhb Wgxb Wghb bib bfb bgb x h c mk Wi Wf Wg bi bf bg p r
      hx hh hc hm hix hih hfx hfh hgx hgh hbi hbf hbg j]
  rfl

end Cert.KernelIdeal.CellBridge

end
-- ==== Proof.CellFinal.lean ====
/-
  The two result arrays after the kernel's run are the new hidden state and the new cell state of the arguments.

  At grid point `t` the body writes back, into rows `8192 t .. 8192 t + 8191` of each result, its stored value; read at
  entry `(r, j)` of the block that value is the block-level cell (or hidden) entry, which is the batch-level one at row
  `8192 t + r`. The 32 blocks cover every row (row `p` lies in block `p / 8192`), so each result array is the
  batch-level function everywhere.
-/
import proofs.«127983_j19456201851160_1_alg».proof.Proof.Gen.KernelIdeal.Value
import proofs.«127983_j19456201851160_1_alg».proof.Proof.CellBlocks
import proofs.«127983_j19456201851160_1_alg».proof.Proof.CellBridge

set_option maxRecDepth 16384

noncomputable section

namespace Cert.KernelIdeal.CellFinal

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LstmCell Cert.KernelIdeal.CellPoint Cert.KernelIdeal.CellBridge Cert.KernelIdeal.CellBlocks

variable (m : (ℓ : Loc nD τ sig) → Buf (Elt Ideal) ℓ) (ρ : Dev nD → PrngReg)

theorem hz : (![0, 0] : Fin 2 → Nat) = fun _ => 0 := funext fun a => by fin_cases a <;> rfl

/-- The new cell state of the argument arrays. -/
abbrev cellOf (c : Dev nD) : Rows :=
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg10)) (m ((c : Thread nD τ).loc main_arg5)) (m ((c : Thread nD τ).loc main_arg7)) (m ((c : Thread nD τ).loc main_arg11))

/-- The new hidden state of the argument arrays. -/
abbrev hiddenOf (c : Dev nD) : Rows :=
  hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg10)) (m ((c : Thread nD τ).loc main_arg5)) (m ((c : Thread nD τ).loc main_arg7)) (m ((c : Thread nD τ).loc main_arg9)) (m ((c : Thread nD τ).loc main_arg11))

/-! ## The cell-state result -/

/-- Entry `(r, j)` of point `t`'s block is entry `(8192 t + r, j)` of the array. -/
theorem emb17 (t : Fin cfg0.N) (r : Fin 8192) (j : Fin 64) :
    ((cfg0.win 17).blk t).view.emb (ix2 r j) = ix2 (row t r) j := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext d
  apply Fin.ext
  match d with
  | ⟨0, _⟩ => show win0_17.index t (0 : Fin 2) * 8192 + 1 * r.val = 8192 * t.val + r.val; rw [e17_0]; omega
  | ⟨1, _⟩ => show win0_17.index t (1 : Fin 2) * 64 + 1 * j.val = j.val; rw [e17_1]; omega

/-- What point `t` writes back to the cell-state result is block `t` of the new cell state. -/
theorem flushed17_eq (c : Dev nD) (t : Fin cfg0.N) :
    (dats m 0 c).flushed 17 t = ((cfg0.win 17).blk t).view.read (Elt Ideal) (cellOf m c) := by
  rw [flushed17]
  unfold out0_17
  rw [View.canon_unit_zero hz]
  simp only [View.ld_unit_zero (S := S8192x64) hz, View.ld_unit_zero (S := S8192x1) hz, View.ld_unit_zero (S := S64x64) hz, View.ld_unit_zero (S := S1x64) hz]
  funext y
  obtain ⟨r, j, rfl⟩ : ∃ (r : Fin 8192) (j : Fin 64), y = ix2 r j := ⟨y 0, y 1, eq_ix2 (n0 := 8192) (n1 := 64) y⟩
  show k0_pay11 (k0_pay1 (iblk m c 3 t) (iblk m c 0 t)) (k0_pay2 (iblk m c 3 t) (iblk m c 1 t)) (k0_pay3 (iblk m c 6 t)) (k0_pay4 (iblk m c 7 t)) (k0_pay7 (iblk m c 10 t)) (k0_pay8 (iblk m c 11 t))
      (k0_pay9 (iblk m c 3 t) (iblk m c 0 t) (iblk m c 4 t)) (k0_pay10 (iblk m c 3 t) (iblk m c 1 t) (iblk m c 5 t)) (iblk m c 12 t) (iblk m c 13 t) (iblk m c 15 t) (iblk m c 2 t) (ix2 r j)
    = cellOf m c (((cfg0.win 17).blk t).view.emb (ix2 r j))
  rw [emb17]
  refine (cell_at (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) (iblk m c 15 t) r j).trans ?_
  exact bcell_eq_cell (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg10)) (m ((c : Thread nD τ).loc main_arg5)) (m ((c : Thread nD τ).loc main_arg7)) (m ((c : Thread nD τ).loc main_arg11)) (row t r) r
    (xblk_at m c t r) (hblk_at m c t r) (cblk_at m c t r) (mblk_at m c t r)
    (w4_at m c t) (w5_at m c t) (w6_at m c t) (w7_at m c t) (w10_at m c t) (w11_at m c t)
    (b12_at m c t) (b13_at m c t) (b15_at m c t) j

/-- An index of the array is in point `t`'s block iff each coordinate is in the block's range on its axis. -/
theorem mem_blk17 (t : Fin cfg0.N) (i : S262144x64.Idx) :
    i ∈ ((cfg0.win 17).blk t).view.set ↔ ∀ a : Fin 2, win0_17.index t a * S8192x64.size a ≤ (i a).val ∧ (i a).val < win0_17.index t a * S8192x64.size a + S8192x64.size a := by
  show i ∈ ((View.whole main_v12_1).slice (win0_17.rect t)).set ↔ _
  rw [View.set_slice_whole, Rect.mem_set_unit]
  exact Iff.rfl

/-- Every row of the array lies in the block of the point `row / 8192`. -/
theorem cover17 (i : S262144x64.Idx) :
    ∃ t : Fin cfg0.N, (cfg0.win 17).flush t = true ∧ i ∈ ((cfg0.win 17).blk t).view.set := by
  have hi0 : (i 0).val < 262144 := (i 0).isLt
  have hi1 : (i 1).val < 64 := (i 1).isLt
  have hN : cfg0.N = 32 := N_0
  obtain ⟨t, ht⟩ : ∃ t : Fin cfg0.N, t.val = (i 0).val / 8192 := ⟨⟨(i 0).val / 8192, by omega⟩, rfl⟩
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  refine ⟨t, flush0_17 t, ?_⟩
  rw [mem_blk17]
  intro a
  match a with
  | ⟨0, _⟩ => show win0_17.index t (0 : Fin 2) * 8192 ≤ (i 0).val ∧ (i 0).val < win0_17.index t (0 : Fin 2) * 8192 + 8192; rw [e17_0]; omega
  | ⟨1, _⟩ => show win0_17.index t (1 : Fin 2) * 64 ≤ (i 1).val ∧ (i 1).val < win0_17.index t (1 : Fin 2) * 64 + 64; rw [e17_1]; omega

/-- The cell-state result array after the run. -/
theorem final17 (c : Dev nD) : (dats m 0 c).arrAt 17 cfg0.N = cellOf m c :=
  (dats m 0 c).arrAt_eq_of_cover 17 (cellOf m c) (fun t _ => flushed17_eq m c t) cover17

/-! ## The hidden-state result -/

/-- Entry `(r, j)` of point `t`'s block is entry `(8192 t + r, j)` of the array. -/
theorem emb16 (t : Fin cfg0.N) (r : Fin 8192) (j : Fin 64) :
    ((cfg0.win 16).blk t).view.emb (ix2 r j) = ix2 (row t r) j := by
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext d
  apply Fin.ext
  match d with
  | ⟨0, _⟩ => show win0_16.index t (0 : Fin 2) * 8192 + 1 * r.val = 8192 * t.val + r.val; rw [e16_0]; omega
  | ⟨1, _⟩ => show win0_16.index t (1 : Fin 2) * 64 + 1 * j.val = j.val; rw [e16_1]; omega

/-- What point `t` writes back to the hidden-state result is block `t` of the new hidden state. -/
theorem flushed16_eq (c : Dev nD) (t : Fin cfg0.N) :
    (dats m 0 c).flushed 16 t = ((cfg0.win 16).blk t).view.read (Elt Ideal) (hiddenOf m c) := by
  rw [flushed16]
  unfold out0_16
  rw [View.canon_unit_zero hz]
  simp only [View.ld_unit_zero (S := S8192x64) hz, View.ld_unit_zero (S := S8192x1) hz, View.ld_unit_zero (S := S64x64) hz, View.ld_unit_zero (S := S1x64) hz]
  funext y
  obtain ⟨r, j, rfl⟩ : ∃ (r : Fin 8192) (j : Fin 64), y = ix2 r j := ⟨y 0, y 1, eq_ix2 (n0 := 8192) (n1 := 64) y⟩
  show k0_pay12 (k0_pay1 (iblk m c 3 t) (iblk m c 0 t)) (k0_pay2 (iblk m c 3 t) (iblk m c 1 t)) (k0_pay3 (iblk m c 6 t)) (k0_pay4 (iblk m c 7 t)) (k0_pay5 (iblk m c 8 t)) (k0_pay6 (iblk m c 9 t)) (k0_pay7 (iblk m c 10 t)) (k0_pay8 (iblk m c 11 t))
      (k0_pay9 (iblk m c 3 t) (iblk m c 0 t) (iblk m c 4 t)) (k0_pay10 (iblk m c 3 t) (iblk m c 1 t) (iblk m c 5 t)) (iblk m c 12 t) (iblk m c 13 t) (iblk m c 14 t) (iblk m c 15 t) (iblk m c 2 t) (ix2 r j)
    = hiddenOf m c (((cfg0.win 16).blk t).view.emb (ix2 r j))
  rw [emb16]
  refine (hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r j).trans ?_
  exact bhidden_eq_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg10)) (m ((c : Thread nD τ).loc main_arg5)) (m ((c : Thread nD τ).loc main_arg7)) (m ((c : Thread nD τ).loc main_arg9)) (m ((c : Thread nD τ).loc main_arg11)) (row t r) r
    (xblk_at m c t r) (hblk_at m c t r) (cblk_at m c t r) (mblk_at m c t r)
    (w4_at m c t) (w5_at m c t) (w6_at m c t) (w7_at m c t) (w8_at m c t) (w9_at m c t) (w10_at m c t) (w11_at m c t)
    (b12_at m c t) (b13_at m c t) (b14_at m c t) (b15_at m c t) j

/-- An index of the array is in point `t`'s block iff each coordinate is in the block's range on its axis. -/
theorem mem_blk16 (t : Fin cfg0.N) (i : S262144x64.Idx) :
    i ∈ ((cfg0.win 16).blk t).view.set ↔ ∀ a : Fin 2, win0_16.index t a * S8192x64.size a ≤ (i a).val ∧ (i a).val < win0_16.index t a * S8192x64.size a + S8192x64.size a := by
  show i ∈ ((View.whole main_v12_0).slice (win0_16.rect t)).set ↔ _
  rw [View.set_slice_whole, Rect.mem_set_unit]
  exact Iff.rfl

/-- Every row of the array lies in the block of the point `row / 8192`. -/
theorem cover16 (i : S262144x64.Idx) :
    ∃ t : Fin cfg0.N, (cfg0.win 16).flush t = true ∧ i ∈ ((cfg0.win 16).blk t).view.set := by
  have hi0 : (i 0).val < 262144 := (i 0).isLt
  have hi1 : (i 1).val < 64 := (i 1).isLt
  have hN : cfg0.N = 32 := N_0
  obtain ⟨t, ht⟩ : ∃ t : Fin cfg0.N, t.val = (i 0).val / 8192 := ⟨⟨(i 0).val / 8192, by omega⟩, rfl⟩
  obtain ⟨e0_0, e0_1, e1_0, e1_1, e2_0, e2_1, e3_0, e3_1, e16_0, e16_1, e17_0, e17_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  refine ⟨t, flush0_16 t, ?_⟩
  rw [mem_blk16]
  intro a
  match a with
  | ⟨0, _⟩ => show win0_16.index t (0 : Fin 2) * 8192 ≤ (i 0).val ∧ (i 0).val < win0_16.index t (0 : Fin 2) * 8192 + 8192; rw [e16_0]; omega
  | ⟨1, _⟩ => show win0_16.index t (1 : Fin 2) * 64 ≤ (i 1).val ∧ (i 1).val < win0_16.index t (1 : Fin 2) * 64 + 64; rw [e16_1]; omega

/-- The hidden-state result array after the run. -/
theorem final16 (c : Dev nD) : (dats m 0 c).arrAt 16 cfg0.N = hiddenOf m c :=
  (dats m 0 c).arrAt_eq_of_cover 16 (hiddenOf m c) (fun t _ => flushed16_eq m c t) cover16

/-! ## The run, read -/

/-- Every weakly fair execution of the kernel's program ends with the first result at the new hidden state and the
    second at the new cell state of the arguments, the arguments unchanged. -/
theorem run : θ_run defs (onTc (τ := τ) (main (F := Ideal))) ⟨m, fun _ => 0, ρ⟩ fun r => ∀ c : Dev nD,
      r.2.mem ((c : Thread nD τ).loc main_v12_0) = hiddenOf m c
      ∧ r.2.mem ((c : Thread nD τ).loc main_v12_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final16 m c), (h c).2.1.trans (final17 m c), (h c).2.2⟩)
    (Cert.KernelIdeal.Value.run_blocks m ρ)

end Cert.KernelIdeal.CellFinal

end
-- ==== Proof.lean ====
/-
  One step of an LSTM cell with a per-row dropout scale: a tiled kernel against a one-product reference.

  Both programs take a batch of 262144 rows: an input vector and a previous hidden vector of 64 entries each, a previous
  cell vector, one scale per row that multiplies the input and the hidden vector alike, and for each of the four gates a
  128-by-64 weight matrix (rows 0..63 for the input, 64..127 for the hidden vector) and a bias. They return the new hidden
  state and the new cell state.

  The reference joins input and hidden vector into one 128-entry row, joins the four gates' weights and biases, and takes
  one matrix product; the kernel works on 32 blocks of 8192 rows and takes, per gate, one product with each 64-row half
  of the weights. On the extended reals a change of float format is the identity, a matrix product into a zero
  accumulator is the plain sum over the contracted entries, and a sum over 128 entries is the sum over its first 64 plus
  the sum over its last 64; the sigmoid the kernel applies is the expression `1 / (1 + e^(-y))` the reference spells, and
  the hyperbolic tangent is one function on both sides. So both programs compute, entry by entry, the functions
  `hidden` and `cell` of Proof/Spec.lean. No law used here needs the inputs to be finite.

  Proof/CellRef.lean reads the reference's stages as those functions; Proof/CellPoint.lean reads the kernel body's two
  stored values at an entry of a block; Proof/CellBlocks.lean reads each block as entries of the argument arrays;
  Proof/CellBridge.lean carries a block-level gate to the batch-level one; Proof/CellFinal.lean puts the 32 written-back
  blocks together into the two result arrays. The kernel's two frames are the generated ones, the reference's frame is
  its generated run with the results dropped, and the idealization rewrote nothing.
-/
import proofs.«127983_j19456201851160_1_alg».proof.Defs
import proofs.«127983_j19456201851160_1_alg».proof.Proof.Gen.Kernel
import proofs.«127983_j19456201851160_1_alg».proof.Proof.Gen.Kernel.Skeleton
import proofs.«127983_j19456201851160_1_alg».proof.Proof.Gen.Kernel.Launch
import proofs.«127983_j19456201851160_1_alg».proof.Proof.Gen.Kernel.Points
import proofs.«127983_j19456201851160_1_alg».proof.Proof.Gen.Kernel.Frame
import proofs.«127983_j19456201851160_1_alg».proof.Proof.Gen.KernelIdeal
import proofs.«127983_j19456201851160_1_alg».proof.Proof.Gen.KernelIdeal.Skeleton
import proofs.«127983_j19456201851160_1_alg».proof.Proof.Gen.KernelIdeal.Launch
import proofs.«127983_j19456201851160_1_alg».proof.Proof.Gen.KernelIdeal.Points
import proofs.«127983_j19456201851160_1_alg».proof.Proof.Gen.KernelIdeal.Frame
import proofs.«127983_j19456201851160_1_alg».proof.Proof.Gen.KernelIdeal.Value
import proofs.«127983_j19456201851160_1_alg».proof.Proof.Gen.ReferenceIdeal
import proofs.«127983_j19456201851160_1_alg».proof.Proof.Gen.ReferenceIdeal.Run
import proofs.«127983_j19456201851160_1_alg».proof.Proof.Gen.ReferenceIdeal.Read
import proofs.«127983_j19456201851160_1_alg».proof.Proof.Gen.Pre_finite_inputs
import proofs.«127983_j19456201851160_1_alg».proof.Proof.CellRef
import proofs.«127983_j19456201851160_1_alg».proof.Proof.CellFinal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's first result and the reference's first result are both the new hidden
    state, and their second results are both the new cell state. -/
theorem algebraic : Cert.algebraic_KernelIdeal_ReferenceIdeal := by
  intro m ρ m' ρ' _ hagree
  refine ⟨fun c => Cert.KernelIdeal.CellFinal.hiddenOf m c, fun c => Cert.KernelIdeal.CellFinal.cellOf m c,
    Cert.KernelIdeal.CellFinal.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · refine (Cert.ReferenceIdeal.Read.val_main_v36_eq m' c).trans ((Cert.ReferenceIdeal.CellRef.ref_hidden
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg11))).trans ?_)
    rw [a0, a1, a2, a3, a4, a5, a6, a7, a8, a9, a10, a11]
  · refine (Cert.ReferenceIdeal.Read.val_main_v34_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))).trans ((Cert.ReferenceIdeal.CellRef.ref_cell
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg11))).trans ?_)
    rw [a0, a1, a2, a3, a4, a5, a6, a7, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
